-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S160000 : Shape := ⟨1, ![160000]⟩
abbrev S40000 : Shape := ⟨1, ![40000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S1024x256 .f32) (main_arg5 : FVec F S1024x256 .f32) (main_arg6 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x512 .f32) (main_arg1 : FVec F S512x1024 .f32) (main_arg2 : FVec F S512x1024 .f32) (main_arg3 : FVec F S1024 .f32) (main_arg4 : FVec F S1024x256 .f32) (main_arg5 : FVec F S1024x256 .f32) (main_arg6 : FVec F S256 .f32) (main_arg7 : IVec S160000 32) (main_arg8 : IVec S160000 32) (main_arg9 : IVec S40000 32) (main_arg10 : IVec S40000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S100000x512 : Shape := ⟨2, ![100000, 512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S160000 : Shape := ⟨1, ![160000]⟩
abbrev S40000 : Shape := ⟨1, ![40000]⟩
abbrev S_ : Shape := ⟨0, ![]⟩
abbrev S160000x1 : Shape := ⟨2, ![160000, 1]⟩
abbrev S160000x512 : Shape := ⟨2, ![160000, 512]⟩
abbrev S20000x512 : Shape := ⟨2, ![20000, 512]⟩
abbrev S20000 : Shape := ⟨1, ![20000]⟩
abbrev S20000x1 : Shape := ⟨2, ![20000, 1]⟩
abbrev S1x1024 : Shape := ⟨2, ![1, 1024]⟩
abbrev S20000x1024 : Shape := ⟨2, ![20000, 1024]⟩
abbrev S2000x512 : Shape := ⟨2, ![2000, 512]⟩
abbrev S2000x1024 : Shape := ⟨2, ![2000, 1024]⟩
abbrev S40000x1 : Shape := ⟨2, ![40000, 1]⟩
abbrev S40000x1024 : Shape := ⟨2, ![40000, 1024]⟩
abbrev S5000x1024 : Shape := ⟨2, ![5000, 1024]⟩
abbrev S5000 : Shape := ⟨1, ![5000]⟩
abbrev S5000x1 : Shape := ⟨2, ![5000, 1]⟩
abbrev S1x256 : Shape := ⟨2, ![1, 256]⟩
abbrev S5000x256 : Shape := ⟨2, ![5000, 256]⟩
abbrev S1000x1024 : Shape := ⟨2, ![1000, 1024]⟩
abbrev S1000x256 : Shape := ⟨2, ![1000, 256]⟩

abbrev nBuf : Space → Nat
  | .hbm => 75
  | .vmem => 18
  | .smem => 0
  | _ => 0

abbrev bufTy : (tb : Table) → Fin (tcTables nBuf tb) → BufTy
  | .hbm, ⟨0, _⟩ => ⟨S100000x512, .f32⟩
  | .hbm, ⟨1, _⟩ => ⟨S512x1024, .f32⟩
  | .hbm, ⟨2, _⟩ => ⟨S512x1024, .f32⟩
  | .hbm, ⟨3, _⟩ => ⟨S1024, .f32⟩
  | .hbm, ⟨4, _⟩ => ⟨S1024x256, .f32⟩
  | .hbm, ⟨5, _⟩ => ⟨S1024x256, .f32⟩
  | .hbm, ⟨6, _⟩ => ⟨S256, .f32⟩
  | .hbm, ⟨7, _⟩ => ⟨S160000, .i32⟩
  | .hbm, ⟨8, _⟩ => ⟨S160000, .i32⟩
  | .hbm, ⟨9, _⟩ => ⟨S40000, .i32⟩
  | .hbm, ⟨10, _⟩ => ⟨S40000, .i32⟩
  | .hbm, ⟨11, _⟩ => ⟨S_, .i32⟩
  | .hbm, ⟨12, _⟩ => ⟨S160000, .i32⟩
  | .hbm, ⟨13, _⟩ => ⟨S160000, .i1⟩
  | .hbm, ⟨14, _⟩ => ⟨S_, .i32⟩
  | .hbm, ⟨15, _⟩ => ⟨S160000, .i32⟩
  | .hbm, ⟨16, _⟩ => ⟨S160000, .i32⟩
  | .hbm, ⟨17, _⟩ => ⟨S160000, .i32⟩
  | .hbm, ⟨18, _⟩ => ⟨S160000x1, .i32⟩
  | .hbm, ⟨19, _⟩ => ⟨S160000x512, .f32⟩
  | .hbm, ⟨20, _⟩ => ⟨S_, .f32⟩
  | .hbm, ⟨21, _⟩ => ⟨S20000x512, .f32⟩
  | .hbm, ⟨22, _⟩ => ⟨S160000x1, .i32⟩
  | .hbm, ⟨23, _⟩ => ⟨S20000x512, .f32⟩
  | .hbm, ⟨24, _⟩ => ⟨S_, .f32⟩
  | .hbm, ⟨25, _⟩ => ⟨S160000, .f32⟩
  | .hbm, ⟨26, _⟩ => ⟨S_, .f32⟩
  | .hbm, ⟨27, _⟩ => ⟨S20000, .f32⟩
  | .hbm, ⟨28, _⟩ => ⟨S160000x1, .i32⟩
  | .hbm, ⟨29, _⟩ => ⟨S20000, .f32⟩
  | .hbm, ⟨30, _⟩ => ⟨S_, .f32⟩
  | .hbm, ⟨31, _⟩ => ⟨S20000, .f32⟩
  | .hbm, ⟨32, _⟩ => ⟨S20000, .f32⟩
  | .hbm, ⟨33, _⟩ => ⟨S20000x1, .f32⟩
  | .hbm, ⟨34, _⟩ => ⟨S20000x512, .f32⟩
  | .hbm, ⟨35, _⟩ => ⟨S20000x512, .f32⟩
  | .hbm, ⟨36, _⟩ => ⟨S20000x512, .f32⟩
  | .hbm, ⟨37, _⟩ => ⟨S20000x512, .bf16⟩
  | .hbm, ⟨38, _⟩ => ⟨S20000x512, .bf16⟩
  | .hbm, ⟨39, _⟩ => ⟨S512x1024, .bf16⟩
  | .hbm, ⟨40, _⟩ => ⟨S512x1024, .bf16⟩
  | .hbm, ⟨41, _⟩ => ⟨S1x1024, .f32⟩
  | .hbm, ⟨42, _⟩ => ⟨S20000x1024, .f32⟩
  | .hbm, ⟨43, _⟩ => ⟨S_, .i32⟩
  | .hbm, ⟨44, _⟩ => ⟨S40000, .i32⟩
  | .hbm, ⟨45, _⟩ => ⟨S40000, .i1⟩
  | .hbm, ⟨46, _⟩ => ⟨S_, .i32⟩
  | .hbm, ⟨47, _⟩ => ⟨S40000, .i32⟩
  | .hbm, ⟨48, _⟩ => ⟨S40000, .i32⟩
  | .hbm, ⟨49, _⟩ => ⟨S40000, .i32⟩
  | .hbm, ⟨50, _⟩ => ⟨S40000x1, .i32⟩
  | .hbm, ⟨51, _⟩ => ⟨S40000x1024, .f32⟩
  | .hbm, ⟨52, _⟩ => ⟨S_, .f32⟩
  | .hbm, ⟨53, _⟩ => ⟨S5000x1024, .f32⟩
  | .hbm, ⟨54, _⟩ => ⟨S40000x1, .i32⟩
  | .hbm, ⟨55, _⟩ => ⟨S5000x1024, .f32⟩
  | .hbm, ⟨56, _⟩ => ⟨S_, .f32⟩
  | .hbm, ⟨57, _⟩ => ⟨S40000, .f32⟩
  | .hbm, ⟨58, _⟩ => ⟨S_, .f32⟩
  | .hbm, ⟨59, _⟩ => ⟨S5000, .f32⟩
  | .hbm, ⟨60, _⟩ => ⟨S40000x1, .i32⟩
  | .hbm, ⟨61, _⟩ => ⟨S5000, .f32⟩
  | .hbm, ⟨62, _⟩ => ⟨S_, .f32⟩
  | .hbm, ⟨63, _⟩ => ⟨S5000, .f32⟩
  | .hbm, ⟨64, _⟩ => ⟨S5000, .f32⟩
  | .hbm, ⟨65, _⟩ => ⟨S5000x1, .f32⟩
  | .hbm, ⟨66, _⟩ => ⟨S5000x1024, .f32⟩
  | .hbm, ⟨67, _⟩ => ⟨S5000x1024, .f32⟩
  | .hbm, ⟨68, _⟩ => ⟨S5000x1024, .f32⟩
  | .hbm, ⟨69, _⟩ => ⟨S5000x1024, .bf16⟩
  | .hbm, ⟨70, _⟩ => ⟨S5000x1024, .bf16⟩
  | .hbm, ⟨71, _⟩ => ⟨S1024x256, .bf16⟩
  | .hbm, ⟨72, _⟩ => ⟨S1024x256, .bf16⟩
  | .hbm, ⟨73, _⟩ => ⟨S1x256, .f32⟩
  | .hbm, ⟨74, _⟩ => ⟨S5000x256, .f32⟩
  | .local _ .vmem, ⟨0, _⟩ => ⟨S2000x512, .bf16⟩
  | .local _ .vmem, ⟨1, _⟩ => ⟨S2000x512, .bf16⟩
  | .local _ .vmem, ⟨2, _⟩ => ⟨S2000x512, .bf16⟩
  | .local _ .vmem, ⟨3, _⟩ => ⟨S2000x512, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S2000x1024, .f32⟩
  | .local _ .vmem, ⟨8, _⟩ => ⟨S2000x1024, .f32⟩
  | .local _ .vmem, ⟨9, _⟩ => ⟨S1000x1024, .bf16⟩
  | .local _ .vmem, ⟨10, _⟩ => ⟨S1000x1024, .bf16⟩
  | .local _ .vmem, ⟨11, _⟩ => ⟨S1000x1024, .bf16⟩
  | .local _ .vmem, ⟨12, _⟩ => ⟨S1000x1024, .bf16⟩
  | .local _ .vmem, ⟨13, _⟩ => ⟨S1024x256, .bf16⟩
  | .local _ .vmem, ⟨14, _⟩ => ⟨S1024x256, .bf16⟩
  | .local _ .vmem, ⟨15, _⟩ => ⟨S1x256, .f32⟩
  | .local _ .vmem, ⟨16, _⟩ => ⟨S1000x256, .f32⟩
  | .local _ .vmem, ⟨17, _⟩ => ⟨S1000x256, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S20000x512 : S_.BroadcastsInDim S20000x512 (![] : Fin 0 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  slices_S100000x512_S20000x512_0_0 : S100000x512.Slices ![0, 0] S20000x512
  bitsLt_bf16_f32 : FTy.bits .bf16 < FTy.bits .f32
  shapeCasts_S1024_S1x1024 : S1024.ShapeCasts S1x1024
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  bcast_S_S40000 : S_.BroadcastsInDim S40000 (![] : Fin 0 → Fin S40000.rank)
  bcast_S40000_S40000x1_0 : S40000.BroadcastsInDim S40000x1 (![0] : Fin 1 → Fin S40000x1.rank)
  bcast_S_S5000x1024 : S_.BroadcastsInDim S5000x1024 (![] : Fin 0 → Fin S5000x1024.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x1024_0_1 : S5000x1.BroadcastsInDim S5000x1024 (![0, 1] : Fin 2 → Fin S5000x1024.rank)
  slices_S20000x1024_S5000x1024_0_0 : S20000x1024.Slices ![0, 0] S5000x1024
  shapeCasts_S256_S1x256 : S256.ShapeCasts S1x256
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  gather_S100000x512_S160000x1_S160000x512_1_0_n_n_0_1_1512_wf : GatherDims.WF S100000x512 S160000x1 S160000x512 [1] [0] [] [0] [] 1 ![1, 512]
  scatter_S20000x512_S160000x1_S160000x512_1_0_0_1_wf : ScatterDims.WF S20000x512 S160000x1 S160000x512 [1] [0] [0] 1
  scatter_S20000_S160000x1_S160000_n_0_0_1_wf : ScatterDims.WF S20000 S160000x1 S160000 [] [0] [0] 1
  dot_S2000x512_S512x1024_S2000x1024_1_0_0_1_n_n_wf : DotDims.WF S2000x512 S512x1024 S2000x1024 [1] [0] [0] [1] [] []
  gather_S20000x1024_S40000x1_S40000x1024_1_0_n_n_0_1_11024_wf : GatherDims.WF S20000x1024 S40000x1 S40000x1024 [1] [0] [] [0] [] 1 ![1, 1024]
  scatter_S5000x1024_S40000x1_S40000x1024_1_0_0_1_wf : ScatterDims.WF S5000x1024 S40000x1 S40000x1024 [1] [0] [0] 1
  scatter_S5000_S40000x1_S40000_n_0_0_1_wf : ScatterDims.WF S5000 S40000x1 S40000 [] [0] [0] 1
  dot_S1000x1024_S1024x256_S1000x256_1_0_0_1_n_n_wf : DotDims.WF S1000x1024 S1024x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .bf16 = 32 ∨ (Rect.block (s := S20000x512) S2000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S20000x512.size a
  hwx0_1 : ∀ i : grid0.Coords, EltTy.bits .bf16 = 32 ∨ (Rect.block (s := S20000x512) S2000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1024.size a ≤ S20000x1024.size a
  hwx0_5 : ∀ i : grid0.Coords, EltTy.bits .f32 = 32 ∨ (Rect.block (s := S20000x1024) S2000x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S5000x1024.size a
  hwx1_0 : ∀ i : grid1.Coords, EltTy.bits .bf16 = 32 ∨ (Rect.block (s := S5000x1024) S1000x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1024.size a ≤ S5000x1024.size a
  hwx1_1 : ∀ i : grid1.Coords, EltTy.bits .bf16 = 32 ∨ (Rect.block (s := S5000x1024) S1000x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S1024x256.size a
  hwx1_2 : ∀ i : grid1.Coords, EltTy.bits .bf16 = 32 ∨ (Rect.block (s := S1024x256) S1024x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S1024x256.size a
  hwx1_3 : ∀ i : grid1.Coords, EltTy.bits .bf16 = 32 ∨ (Rect.block (s := S1024x256) S1024x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x256.size a ≤ S5000x256.size a
  hwx1_5 : ∀ i : grid1.Coords, EltTy.bits .f32 = 32 ∨ (Rect.block (s := S5000x256) S1000x256.size (cc1_transform_5 i) (hinb1_5 i)).WholeWords (EltTy.packing .f32)

variable [Facts₀]

def gather_S100000x512_S160000x1_S160000x512_1_0_n_n_0_1_1512 : GatherDims S100000x512 S160000x1 S160000x512 where
  offsetDims := [1]
  collapsedSliceDims := [0]
  operandBatchingDims := []
  startIndicesBatchingDims := []
  startIndexMap := [0]
  indexVectorDim := 1
  sliceSizes := ![1, 512]
  wf := gather_S100000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def dot_S2000x512_S512x1024_S2000x1024_1_0_0_1_n_n : DotDims S2000x512 S512x1024 S2000x1024 where
  lhsContracting := [1]
  rhsContracting := [0]
  lhsNonContracting := [0]
  rhsNonContracting := [1]
  lhsBatch := []
  rhsBatch := []
  wf := dot_S2000x512_S512x1024_S2000x1024_1_0_0_1_n_n_wf
def gather_S20000x1024_S40000x1_S40000x1024_1_0_n_n_0_1_11024 : GatherDims S20000x1024 S40000x1 S40000x1024 where
  offsetDims := [1]
  collapsedSliceDims := [0]
  operandBatchingDims := []
  startIndicesBatchingDims := []
  startIndexMap := [0]
  indexVectorDim := 1
  sliceSizes := ![1, 1024]
  wf := gather_S20000x1024_S40000x1_S40000x1024_1_0_n_n_0_1_11024_wf
def scatter_S5000x1024_S40000x1_S40000x1024_1_0_0_1 : ScatterDims S5000x1024 S40000x1 S40000x1024 where
  updateWindowDims := [1]
  insertedWindowDims := [0]
  scatterDimsToOperandDims := [0]
  indexVectorDim := 1
  wf := scatter_S5000x1024_S40000x1_S40000x1024_1_0_0_1_wf
def scatter_S5000_S40000x1_S40000_n_0_0_1 : ScatterDims S5000 S40000x1 S40000 where
  updateWindowDims := []
  insertedWindowDims := [0]
  scatterDimsToOperandDims := [0]
  indexVectorDim := 1
  wf := scatter_S5000_S40000x1_S40000_n_0_0_1_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf

abbrev win0_0 : Pipeline.Window sig grid0 :=
  Pipeline.Window.ofSpec (Memref.whole main_v20) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1000x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1024x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1024x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S1000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S160000 : Shape := ⟨1, ![160000]⟩
abbrev S40000 : Shape := ⟨1, ![40000]⟩
abbrev S20000x512 : Shape := ⟨2, ![20000, 512]⟩
abbrev S_ : Shape := ⟨0, ![]⟩
abbrev S160000x1 : Shape := ⟨2, ![160000, 1]⟩
abbrev S160000x512 : Shape := ⟨2, ![160000, 512]⟩
abbrev S20000 : Shape := ⟨1, ![20000]⟩
abbrev S20000x1 : Shape := ⟨2, ![20000, 1]⟩
abbrev S20000x1024 : Shape := ⟨2, ![20000, 1024]⟩
abbrev S1x1024 : Shape := ⟨2, ![1, 1024]⟩
abbrev S5000x1024 : Shape := ⟨2, ![5000, 1024]⟩
abbrev S40000x1 : Shape := ⟨2, ![40000, 1]⟩
abbrev S40000x1024 : Shape := ⟨2, ![40000, 1024]⟩
abbrev S5000 : Shape := ⟨1, ![5000]⟩
abbrev S5000x1 : Shape := ⟨2, ![5000, 1]⟩
abbrev S5000x256 : Shape := ⟨2, ![5000, 256]⟩
abbrev S1x256 : Shape := ⟨2, ![1, 256]⟩

abbrev nBuf : Space → Nat
  | .hbm => 78
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x1024, .f32⟩
  | .hbm, ⟨2, _⟩ => ⟨S512x1024, .f32⟩
  | .hbm, ⟨3, _⟩ => ⟨S1024, .f32⟩
  | .hbm, ⟨4, _⟩ => ⟨S1024x256, .f32⟩
  | .hbm, ⟨5, _⟩ => ⟨S1024x256, .f32⟩
  | .hbm, ⟨6, _⟩ => ⟨S256, .f32⟩
  | .hbm, ⟨7, _⟩ => ⟨S160000, .i32⟩
  | .hbm, ⟨8, _⟩ => ⟨S160000, .i32⟩
  | .hbm, ⟨9, _⟩ => ⟨S40000, .i32⟩
  | .hbm, ⟨10, _⟩ => ⟨S40000, .i32⟩
  | .hbm, ⟨11, _⟩ => ⟨S20000x512, .f32⟩
  | .hbm, ⟨12, _⟩ => ⟨S_, .i32⟩
  | .hbm, ⟨13, _⟩ => ⟨S160000, .i32⟩
  | .hbm, ⟨14, _⟩ => ⟨S160000, .i1⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S160000x1, .i32⟩
  | .hbm, ⟨20, _⟩ => ⟨S160000x512, .f32⟩
  | .hbm, ⟨21, _⟩ => ⟨S_, .f32⟩
  | .hbm, ⟨22, _⟩ => ⟨S20000x512, .f32⟩
  | .hbm, ⟨23, _⟩ => ⟨S160000x1, .i32⟩
  | .hbm, ⟨24, _⟩ => ⟨S20000x512, .f32⟩
  | .hbm, ⟨25, _⟩ => ⟨S_, .f32⟩
  | .hbm, ⟨26, _⟩ => ⟨S160000, .f32⟩
  | .hbm, ⟨27, _⟩ => ⟨S_, .f32⟩
  | .hbm, ⟨28, _⟩ => ⟨S20000, .f32⟩
  | .hbm, ⟨29, _⟩ => ⟨S160000x1, .i32⟩
  | .hbm, ⟨30, _⟩ => ⟨S20000, .f32⟩
  | .hbm, ⟨31, _⟩ => ⟨S_, .f32⟩
  | .hbm, ⟨32, _⟩ => ⟨S20000, .f32⟩
  | .hbm, ⟨33, _⟩ => ⟨S20000, .f32⟩
  | .hbm, ⟨34, _⟩ => ⟨S20000x1, .f32⟩
  | .hbm, ⟨35, _⟩ => ⟨S20000x512, .f32⟩
  | .hbm, ⟨36, _⟩ => ⟨S20000x512, .f32⟩
  | .hbm, ⟨37, _⟩ => ⟨S20000x1024, .f32⟩
  | .hbm, ⟨38, _⟩ => ⟨S20000x1024, .f32⟩
  | .hbm, ⟨39, _⟩ => ⟨S20000x1024, .f32⟩
  | .hbm, ⟨40, _⟩ => ⟨S1x1024, .f32⟩
  | .hbm, ⟨41, _⟩ => ⟨S20000x1024, .f32⟩
  | .hbm, ⟨42, _⟩ => ⟨S20000x1024, .f32⟩
  | .hbm, ⟨43, _⟩ => ⟨S_, .f32⟩
  | .hbm, ⟨44, _⟩ => ⟨S20000x1024, .f32⟩
  | .hbm, ⟨45, _⟩ => ⟨S20000x1024, .f32⟩
  | .hbm, ⟨46, _⟩ => ⟨S5000x1024, .f32⟩
  | .hbm, ⟨47, _⟩ => ⟨S_, .i32⟩
  | .hbm, ⟨48, _⟩ => ⟨S40000, .i32⟩
  | .hbm, ⟨49, _⟩ => ⟨S40000, .i1⟩
  | .hbm, ⟨50, _⟩ => ⟨S_, .i32⟩
  | .hbm, ⟨51, _⟩ => ⟨S40000, .i32⟩
  | .hbm, ⟨52, _⟩ => ⟨S40000, .i32⟩
  | .hbm, ⟨53, _⟩ => ⟨S40000, .i32⟩
  | .hbm, ⟨54, _⟩ => ⟨S40000x1, .i32⟩
  | .hbm, ⟨55, _⟩ => ⟨S40000x1024, .f32⟩
  | .hbm, ⟨56, _⟩ => ⟨S_, .f32⟩
  | .hbm, ⟨57, _⟩ => ⟨S5000x1024, .f32⟩
  | .hbm, ⟨58, _⟩ => ⟨S40000x1, .i32⟩
  | .hbm, ⟨59, _⟩ => ⟨S5000x1024, .f32⟩
  | .hbm, ⟨60, _⟩ => ⟨S_, .f32⟩
  | .hbm, ⟨61, _⟩ => ⟨S40000, .f32⟩
  | .hbm, ⟨62, _⟩ => ⟨S_, .f32⟩
  | .hbm, ⟨63, _⟩ => ⟨S5000, .f32⟩
  | .hbm, ⟨64, _⟩ => ⟨S40000x1, .i32⟩
  | .hbm, ⟨65, _⟩ => ⟨S5000, .f32⟩
  | .hbm, ⟨66, _⟩ => ⟨S_, .f32⟩
  | .hbm, ⟨67, _⟩ => ⟨S5000, .f32⟩
  | .hbm, ⟨68, _⟩ => ⟨S5000, .f32⟩
  | .hbm, ⟨69, _⟩ => ⟨S5000x1, .f32⟩
  | .hbm, ⟨70, _⟩ => ⟨S5000x1024, .f32⟩
  | .hbm, ⟨71, _⟩ => ⟨S5000x1024, .f32⟩
  | .hbm, ⟨72, _⟩ => ⟨S5000x256, .f32⟩
  | .hbm, ⟨73, _⟩ => ⟨S5000x256, .f32⟩
  | .hbm, ⟨74, _⟩ => ⟨S5000x256, .f32⟩
  | .hbm, ⟨75, _⟩ => ⟨S1x256, .f32⟩
  | .hbm, ⟨76, _⟩ => ⟨S5000x256, .f32⟩
  | .hbm, ⟨77, _⟩ => ⟨S5000x256, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  slices_S100000x512_S20000x512_0_0 : S100000x512.Slices ![0, 0] S20000x512
  bcast_S_S160000 : S_.BroadcastsInDim S160000 (![] : Fin 0 → Fin S160000.rank)
  bcast_S160000_S160000x1_0 : S160000.BroadcastsInDim S160000x1 (![0] : Fin 1 → Fin S160000x1.rank)
  bcast_S_S20000x512 : S_.BroadcastsInDim S20000x512 (![] : Fin 0 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  slices_S20000x1024_S5000x1024_0_0 : S20000x1024.Slices ![0, 0] S5000x1024
  bcast_S_S40000 : S_.BroadcastsInDim S40000 (![] : Fin 0 → Fin S40000.rank)
  bcast_S40000_S40000x1_0 : S40000.BroadcastsInDim S40000x1 (![0] : Fin 1 → Fin S40000x1.rank)
  bcast_S_S5000x1024 : S_.BroadcastsInDim S5000x1024 (![] : Fin 0 → Fin S5000x1024.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x1024_0_1 : S5000x1.BroadcastsInDim S5000x1024 (![0, 1] : Fin 2 → Fin S5000x1024.rank)
  bcast_S256_S1x256_1 : S256.BroadcastsInDim S1x256 (![1] : Fin 1 → Fin S1x256.rank)
  bcast_S1x256_S5000x256_0_1 : S1x256.BroadcastsInDim S5000x256 (![0, 1] : Fin 2 → Fin S5000x256.rank)
  gather_S100000x512_S160000x1_S160000x512_1_0_n_n_0_1_1512_wf : GatherDims.WF S100000x512 S160000x1 S160000x512 [1] [0] [] [0] [] 1 ![1, 512]
  scatter_S20000x512_S160000x1_S160000x512_1_0_0_1_wf : ScatterDims.WF S20000x512 S160000x1 S160000x512 [1] [0] [0] 1
  scatter_S20000_S160000x1_S160000_n_0_0_1_wf : ScatterDims.WF S20000 S160000x1 S160000 [] [0] [0] 1
  dot_S20000x512_S512x1024_S20000x1024_1_0_0_1_n_n_wf : DotDims.WF S20000x512 S512x1024 S20000x1024 [1] [0] [0] [1] [] []
  gather_S20000x1024_S40000x1_S40000x1024_1_0_n_n_0_1_11024_wf : GatherDims.WF S20000x1024 S40000x1 S40000x1024 [1] [0] [] [0] [] 1 ![1, 1024]
  scatter_S5000x1024_S40000x1_S40000x1024_1_0_0_1_wf : ScatterDims.WF S5000x1024 S40000x1 S40000x1024 [1] [0] [0] 1
  scatter_S5000_S40000x1_S40000_n_0_0_1_wf : ScatterDims.WF S5000 S40000x1 S40000 [] [0] [0] 1
  dot_S5000x1024_S1024x256_S5000x256_1_0_0_1_n_n_wf : DotDims.WF S5000x1024 S1024x256 S5000x256 [1] [0] [0] [1] [] []

variable [Facts₀]

def gather_S100000x512_S160000x1_S160000x512_1_0_n_n_0_1_1512 : GatherDims S100000x512 S160000x1 S160000x512 where
  offsetDims := [1]
  collapsedSliceDims := [0]
  operandBatchingDims := []
  startIndicesBatchingDims := []
  startIndexMap := [0]
  indexVectorDim := 1
  sliceSizes := ![1, 512]
  wf := gather_S100000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def dot_S20000x512_S512x1024_S20000x1024_1_0_0_1_n_n : DotDims S20000x512 S512x1024 S20000x1024 where
  lhsContracting := [1]
  rhsContracting := [0]
  lhsNonContracting := [0]
  rhsNonContracting := [1]
  lhsBatch := []
  rhsBatch := []
  wf := dot_S20000x512_S512x1024_S20000x1024_1_0_0_1_n_n_wf
def gather_S20000x1024_S40000x1_S40000x1024_1_0_n_n_0_1_11024 : GatherDims S20000x1024 S40000x1 S40000x1024 where
  offsetDims := [1]
  collapsedSliceDims := [0]
  operandBatchingDims := []
  startIndicesBatchingDims := []
  startIndexMap := [0]
  indexVectorDim := 1
  sliceSizes := ![1, 1024]
  wf := gather_S20000x1024_S40000x1_S40000x1024_1_0_n_n_0_1_11024_wf
def scatter_S5000x1024_S40000x1_S40000x1024_1_0_0_1 : ScatterDims S5000x1024 S40000x1 S40000x1024 where
  updateWindowDims := [1]
  insertedWindowDims := [0]
  scatterDimsToOperandDims := [0]
  indexVectorDim := 1
  wf := scatter_S5000x1024_S40000x1_S40000x1024_1_0_0_1_wf
def scatter_S5000_S40000x1_S40000_n_0_0_1 : ScatterDims S5000 S40000x1 S40000 where
  updateWindowDims := []
  insertedWindowDims := [0]
  scatterDimsToOperandDims := [0]
  indexVectorDim := 1
  wf := scatter_S5000_S40000x1_S40000_n_0_0_1_wf
def dot_S5000x1024_S1024x256_S5000x256_1_0_0_1_n_n : DotDims S5000x1024 S1024x256 S5000x256 where
  lhsContracting := [1]
  rhsContracting := [0]
  lhsNonContracting := [0]
  rhsNonContracting := [1]
  lhsBatch := []
  rhsBatch := []
  wf := dot_S5000x1024_S1024x256_S5000x256_1_0_0_1_n_n_wf

class Facts : Prop extends Facts₀ where

variable [Facts]
-- ==== Proof.SageSpec.lean ====
/-
  One layer of a mean-aggregating graph convolution, as mathematics over the extended reals.

  A layer takes two feature arrays of the same shape [M, K] — the destination nodes' own rows `A` and the mean of each
  destination node's in-neighbours' rows `B` —, two weight arrays [K, N] and a bias row [1, N], and returns the array
  [M, N] whose entry (p, q) is

      (∑ₖ A[p, k] · Ws[k, q]  +  ∑ₖ B[p, k] · Wn[k, q])  +  bias[0, q].

  The association is the one both programs use: the two inner products are added first, the bias last. Nothing
  here needs the entries finite: the statement is an identity of terms, and no distributive or cancelling law is used.
  An entry depends on ONE row of each feature array and ONE column of each weight array, which is what lets a block of
  rows be computed from that block of the feature arrays alone (`entry` is stated over the row and the column as
  functions of the contracted coordinate `k`, so that two arrays agreeing on a row give the same entry by congruence).
-/
import Idealize.ShloMosaic.PureOps.Ideal
import Idealize.ShloMosaic.Lib.ValueIdx

noncomputable section

namespace Cert.Sage

open Idealize.ShloMosaic Idealize.ShloMosaic.ValueIdx

/-- The inner product of a row with a column, over the extended reals. -/
def dot {K : ℕ} (a w : Fin K → EReal) : EReal := ∑ k : Fin K, a k * w k

/-- One entry of a layer: the destination row against the self weights' column, plus the neighbour-mean row against the
    neighbour weights' column, plus the bias entry — the two inner products added first. -/
def entry {K : ℕ} (a b ws wn : Fin K → EReal) (bias : EReal) : EReal := (dot a ws + dot b wn) + bias

/-- A layer as one function of its five arrays, index by index. -/
def layer {M K N : ℕ} (A B : (⟨2, ![M, K]⟩ : Shape).Idx → EReal) (Ws Wn : (⟨2, ![K, N]⟩ : Shape).Idx → EReal)
    (bias : (⟨2, ![1, N]⟩ : Shape).Idx → EReal) : (⟨2, ![M, N]⟩ : Shape).Idx → EReal :=
  fun i => entry (fun k => A (ix2 (n0 := M) (i 0) k)) (fun k => B (ix2 (n0 := M) (i 0) k))
    (fun k => Ws (ix2 (n1 := N) k (i 1))) (fun k => Wn (ix2 (n1 := N) k (i 1))) (bias (ix2 (n1 := N) (0 : Fin 1) (i 1)))

/-- The same followed by the rectifier: the larger of the entry and zero. -/
def layerRelu {M K N : ℕ} (A B : (⟨2, ![M, K]⟩ : Shape).Idx → EReal) (Ws Wn : (⟨2, ![K, N]⟩ : Shape).Idx → EReal)
    (bias : (⟨2, ![1, N]⟩ : Shape).Idx → EReal) : (⟨2, ![M, N]⟩ : Shape).Idx → EReal :=
  fun i => max (layer A B Ws Wn bias i) 0

theorem layer_apply {M K N : ℕ} (A B : (⟨2, ![M, K]⟩ : Shape).Idx → EReal) (Ws Wn : (⟨2, ![K, N]⟩ : Shape).Idx → EReal)
    (bias : (⟨2, ![1, N]⟩ : Shape).Idx → EReal) (p : Fin M) (q : Fin N) :
    layer A B Ws Wn bias (ix2 p q) = entry (fun k => A (ix2 p k)) (fun k => B (ix2 p k))
      (fun k => Ws (ix2 k q)) (fun k => Wn (ix2 k q)) (bias (ix2 (0 : Fin 1) q)) := rfl

theorem layerRelu_apply {M K N : ℕ} (A B : (⟨2, ![M, K]⟩ : Shape).Idx → EReal) (Ws Wn : (⟨2, ![K, N]⟩ : Shape).Idx → EReal)
    (bias : (⟨2, ![1, N]⟩ : Shape).Idx → EReal) (p : Fin M) (q : Fin N) :
    layerRelu A B Ws Wn bias (ix2 p q) = max (entry (fun k => A (ix2 p k)) (fun k => B (ix2 p k))
      (fun k => Ws (ix2 k q)) (fun k => Wn (ix2 k q)) (bias (ix2 (0 : Fin 1) q))) 0 := rfl

end Cert.Sage

end
-- ==== Proof.KernelPayload.lean ====
/-
  The two kernel bodies' stored values, read at one entry, at the ideal instance.

  Each body loads its destination-row block, its neighbour-mean block, the two weight arrays and the bias row whole,
  multiplies each block with its weights into a zero accumulator, adds the two products, adds the bias row broadcast
  over the rows (and, in the first kernel, takes the larger of that and zero), and stores the result whole. At the ideal
  instance a product into a zero accumulator is the plain sum over the contracted coordinate, so entry (p, q) of the
  stored value is `Cert.Sage.entry` of row p of the two blocks and column q of the two weight arrays.
-/
import proofs.«129341_j75350906241117_1_alg».proof.Proof.Gen.KernelIdeal.Skeleton
import proofs.«129341_j75350906241117_1_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

namespace Cert.Sage.KernelPayload

open Cert.KernelIdeal Cert.KernelIdeal.Gen Idealize.ShloMosaic Idealize.ShloMosaic.ValueIdx

/-! ## The first kernel's matrix product: [2000, 512] against [512, 1024], contracting the left operand's axis 1 with the
    right operand's axis 0, no batch axes

  The dimension numbers send an output index (p, q) and a contraction index c to the left index (p, c) and the right
  index (c, q): the left operand's axis 0 is its one free axis and reads the output's axis 0, its axis 1 is the one
  contracted axis; the right operand's axis 0 is the contracted one and its axis 1 reads the output's axis 1. -/

/-- The left index's row is the output index's row. -/
private theorem lhs0_0 (i : S2000x1024.Idx) (c : dot_S2000x512_S512x1024_S2000x1024_1_0_0_1_n_n.contr.Idx) :
    (dot_S2000x512_S512x1024_S2000x1024_1_0_0_1_n_n.lhsIdx i c 0).val = (i 0).val := by
  unfold DotDims.lhsIdx
  rw [dif_neg (show ¬(0 : Fin S2000x512.rank) ∈ dot_S2000x512_S512x1024_S2000x1024_1_0_0_1_n_n.lhsBatch by decide), dif_pos (show (0 : Fin S2000x512.rank) ∈ dot_S2000x512_S512x1024_S2000x1024_1_0_0_1_n_n.lhsNonContracting by decide)]
  rfl
/-- The left index's column is the contraction index's one coordinate. -/
private theorem lhs0_1 (i : S2000x1024.Idx) (c : dot_S2000x512_S512x1024_S2000x1024_1_0_0_1_n_n.contr.Idx) :
    (dot_S2000x512_S512x1024_S2000x1024_1_0_0_1_n_n.lhsIdx i c 1).val = (c ⟨0, by decide⟩).val :=
  dot_S2000x512_S512x1024_S2000x1024_1_0_0_1_n_n.lhsIdx_val_of_single rfl i c
/-- The right index's row is the contraction index's one coordinate. -/
private theorem rhs0_0 (i : S2000x1024.Idx) (c : dot_S2000x512_S512x1024_S2000x1024_1_0_0_1_n_n.contr.Idx) :
    (dot_S2000x512_S512x1024_S2000x1024_1_0_0_1_n_n.rhsIdx i c 0).val = (c ⟨0, by decide⟩).val :=
  dot_S2000x512_S512x1024_S2000x1024_1_0_0_1_n_n.rhsIdx_val_of_single rfl i c
/-- The right index's column is the output index's column. -/
private theorem rhs0_1 (i : S2000x1024.Idx) (c : dot_S2000x512_S512x1024_S2000x1024_1_0_0_1_n_n.contr.Idx) :
    (dot_S2000x512_S512x1024_S2000x1024_1_0_0_1_n_n.rhsIdx i c 1).val = (i 1).val := by
  unfold DotDims.rhsIdx
  rw [dif_neg (show ¬(1 : Fin S512x1024.rank) ∈ dot_S2000x512_S512x1024_S2000x1024_1_0_0_1_n_n.rhsBatch by decide), dif_pos (show (1 : Fin S512x1024.rank) ∈ dot_S2000x512_S512x1024_S2000x1024_1_0_0_1_n_n.rhsNonContracting by decide)]
  rfl

/-- Entry (p, q) of the product of a [2000, 512] array with a [512, 1024] array accumulated into the zero array is the inner
    product of row p of the first with column q of the second: over the extended reals the accumulator's entry is the
    number 0, which adds nothing, and the sum over the one-axis contraction index is, through the bijection of that index
    with its one coordinate k < 512, the sum over k of x[p, k] · w[k, q]. -/
private theorem matmul0_apply (x : FVec Ideal S2000x512 .bf16) (w : FVec Ideal S512x1024 .bf16) (p : Fin 2000) (q : Fin 1024) :
    matmul (F := Ideal) dot_S2000x512_S512x1024_S2000x1024_1_0_0_1_n_n none x w (constant (F := Ideal) S2000x1024 .f32 0x00000000#32) (ix2 p q)
      = Cert.Sage.dot (fun k : Fin 512 => x (ix2 p k)) (fun k : Fin 512 => w (ix2 k q)) := by
  unfold Cert.Sage.dot
  simp only [matmul]
  rw [Ideal.matmul_constant_zero_apply, ← Equiv.sum_comp (ValueIdx.contrEquiv1 dot_S2000x512_S512x1024_S2000x1024_1_0_0_1_n_n 512 rfl rfl).symm]
  refine Finset.sum_congr rfl fun k _ => ?_
  have hk := ValueIdx.contrEquiv1_symm_val dot_S2000x512_S512x1024_S2000x1024_1_0_0_1_n_n 512 rfl rfl k
  have el : dot_S2000x512_S512x1024_S2000x1024_1_0_0_1_n_n.lhsIdx (ix2 p q) ((ValueIdx.contrEquiv1 dot_S2000x512_S512x1024_S2000x1024_1_0_0_1_n_n 512 rfl rfl).symm k) = ix2 p k := funext fun a => Fin.ext (by
    match a with
    | ⟨0, _⟩ => exact lhs0_0 _ _
    | ⟨1, _⟩ => exact (lhs0_1 _ _).trans hk)
  have er : dot_S2000x512_S512x1024_S2000x1024_1_0_0_1_n_n.rhsIdx (ix2 p q) ((ValueIdx.contrEquiv1 dot_S2000x512_S512x1024_S2000x1024_1_0_0_1_n_n 512 rfl rfl).symm k) = ix2 k q := funext fun a => Fin.ext (by
    match a with
    | ⟨0, _⟩ => exact (rhs0_0 _ _).trans hk
    | ⟨1, _⟩ => exact rhs0_1 _ _)
  rw [el, er]

/-! ## The second kernel's matrix product: [1000, 1024] against [1024, 256], contracting the left operand's axis 1 with the
    right operand's axis 0, no batch axes

  The dimension numbers send an output index (p, q) and a contraction index c to the left index (p, c) and the right
  index (c, q): the left operand's axis 0 is its one free axis and reads the output's axis 0, its axis 1 is the one
  contracted axis; the right operand's axis 0 is the contracted one and its axis 1 reads the output's axis 1. -/

/-- The left index's row is the output index's row. -/
private theorem lhs1_0 (i : S1000x256.Idx) (c : dot_S1000x1024_S1024x256_S1000x256_1_0_0_1_n_n.contr.Idx) :
    (dot_S1000x1024_S1024x256_S1000x256_1_0_0_1_n_n.lhsIdx i c 0).val = (i 0).val := by
  unfold DotDims.lhsIdx
  rw [dif_neg (show ¬(0 : Fin S1000x1024.rank) ∈ dot_S1000x1024_S1024x256_S1000x256_1_0_0_1_n_n.lhsBatch by decide), dif_pos (show (0 : Fin S1000x1024.rank) ∈ dot_S1000x1024_S1024x256_S1000x256_1_0_0_1_n_n.lhsNonContracting by decide)]
  rfl
/-- The left index's column is the contraction index's one coordinate. -/
private theorem lhs1_1 (i : S1000x256.Idx) (c : dot_S1000x1024_S1024x256_S1000x256_1_0_0_1_n_n.contr.Idx) :
    (dot_S1000x1024_S1024x256_S1000x256_1_0_0_1_n_n.lhsIdx i c 1).val = (c ⟨0, by decide⟩).val :=
  dot_S1000x1024_S1024x256_S1000x256_1_0_0_1_n_n.lhsIdx_val_of_single rfl i c
/-- The right index's row is the contraction index's one coordinate. -/
private theorem rhs1_0 (i : S1000x256.Idx) (c : dot_S1000x1024_S1024x256_S1000x256_1_0_0_1_n_n.contr.Idx) :
    (dot_S1000x1024_S1024x256_S1000x256_1_0_0_1_n_n.rhsIdx i c 0).val = (c ⟨0, by decide⟩).val :=
  dot_S1000x1024_S1024x256_S1000x256_1_0_0_1_n_n.rhsIdx_val_of_single rfl i c
/-- The right index's column is the output index's column. -/
private theorem rhs1_1 (i : S1000x256.Idx) (c : dot_S1000x1024_S1024x256_S1000x256_1_0_0_1_n_n.contr.Idx) :
    (dot_S1000x1024_S1024x256_S1000x256_1_0_0_1_n_n.rhsIdx i c 1).val = (i 1).val := by
  unfold DotDims.rhsIdx
  rw [dif_neg (show ¬(1 : Fin S1024x256.rank) ∈ dot_S1000x1024_S1024x256_S1000x256_1_0_0_1_n_n.rhsBatch by decide), dif_pos (show (1 : Fin S1024x256.rank) ∈ dot_S1000x1024_S1024x256_S1000x256_1_0_0_1_n_n.rhsNonContracting by decide)]
  rfl

/-- Entry (p, q) of the product of a [1000, 1024] array with a [1024, 256] array accumulated into the zero array is the inner
    product of row p of the first with column q of the second: over the extended reals the accumulator's entry is the
    number 0, which adds nothing, and the sum over the one-axis contraction index is, through the bijection of that index
    with its one coordinate k < 1024, the sum over k of x[p, k] · w[k, q]. -/
private theorem matmul1_apply (x : FVec Ideal S1000x1024 .bf16) (w : FVec Ideal S1024x256 .bf16) (p : Fin 1000) (q : Fin 256) :
    matmul (F := Ideal) dot_S1000x1024_S1024x256_S1000x256_1_0_0_1_n_n none x w (constant (F := Ideal) S1000x256 .f32 0x00000000#32) (ix2 p q)
      = Cert.Sage.dot (fun k : Fin 1024 => x (ix2 p k)) (fun k : Fin 1024 => w (ix2 k q)) := by
  unfold Cert.Sage.dot
  simp only [matmul]
  rw [Ideal.matmul_constant_zero_apply, ← Equiv.sum_comp (ValueIdx.contrEquiv1 dot_S1000x1024_S1024x256_S1000x256_1_0_0_1_n_n 1024 rfl rfl).symm]
  refine Finset.sum_congr rfl fun k _ => ?_
  have hk := ValueIdx.contrEquiv1_symm_val dot_S1000x1024_S1024x256_S1000x256_1_0_0_1_n_n 1024 rfl rfl k
  have el : dot_S1000x1024_S1024x256_S1000x256_1_0_0_1_n_n.lhsIdx (ix2 p q) ((ValueIdx.contrEquiv1 dot_S1000x1024_S1024x256_S1000x256_1_0_0_1_n_n 1024 rfl rfl).symm k) = ix2 p k := funext fun a => Fin.ext (by
    match a with
    | ⟨0, _⟩ => exact lhs1_0 _ _
    | ⟨1, _⟩ => exact (lhs1_1 _ _).trans hk)
  have er : dot_S1000x1024_S1024x256_S1000x256_1_0_0_1_n_n.rhsIdx (ix2 p q) ((ValueIdx.contrEquiv1 dot_S1000x1024_S1024x256_S1000x256_1_0_0_1_n_n 1024 rfl rfl).symm k) = ix2 k q := funext fun a => Fin.ext (by
    match a with
    | ⟨0, _⟩ => exact (rhs1_0 _ _).trans hk
    | ⟨1, _⟩ => exact rhs1_1 _ _)
  rw [el, er]

/-! ## The two stored values at an entry -/

/-- Entry (p, q) of what the first kernel stores, from its five loaded values. The casts to the same shape are the
    identity; the maximum, the two sums and the splat of zero act entry by entry; each product into the zero accumulator
    is the inner product of row p of its block with column q of its weights; the bias row broadcast over the 2000 rows
    reads, at (p, q), the row's entry q; and the zero word is the number 0. So the entry is the larger of
    (x0[p, ·] · x2[·, q] + x5[p, ·] · x7[·, q]) + x11[0, q] and 0. -/
theorem pay0_apply (x0 x5 : Vec Ideal S2000x512 .bf16) (x2 x7 : Vec Ideal S512x1024 .bf16) (x11 : Vec Ideal S1x1024 .f32)
    (p : Fin 2000) (q : Fin 1024) :
    k0_pay1 (F := Ideal) x0 x2 x5 x7 x11 (ix2 p q)
      = max (Cert.Sage.entry (fun k : Fin 512 => x0 (ix2 p k)) (fun k : Fin 512 => x5 (ix2 p k))
          (fun k : Fin 512 => x2 (ix2 k q)) (fun k : Fin 512 => x7 (ix2 k q)) (x11 (ix2 (0 : Fin 1) q))) 0 := by
  unfold k0_pay1 Cert.Sage.entry
  rw [maximumf_apply, addf_apply, addf_apply, broadcast_apply]
  simp only [shapeCast_self]
  rw [matmul0_apply, matmul0_apply, broadcastTo_1b_ab_apply]
  show max _ (Ideal.ofBits .f32 0x00000000#32) = _
  rw [Ideal.ofBits_zero_f32]

/-- Entry (p, q) of what the second kernel stores, from its five loaded values: the same reading with 1024 contracted
    coordinates, 1000 rows and 256 columns, and no maximum: (x0[p, ·] · x2[·, q] + x5[p, ·] · x7[·, q]) + x11[0, q]. -/
theorem pay1_apply (x0 x5 : Vec Ideal S1000x1024 .bf16) (x2 x7 : Vec Ideal S1024x256 .bf16) (x11 : Vec Ideal S1x256 .f32)
    (p : Fin 1000) (q : Fin 256) :
    k1_pay1 (F := Ideal) x0 x2 x5 x7 x11 (ix2 p q)
      = Cert.Sage.entry (fun k : Fin 1024 => x0 (ix2 p k)) (fun k : Fin 1024 => x5 (ix2 p k))
          (fun k : Fin 1024 => x2 (ix2 k q)) (fun k : Fin 1024 => x7 (ix2 k q)) (x11 (ix2 (0 : Fin 1) q)) := by
  unfold k1_pay1 Cert.Sage.entry
  rw [addf_apply, addf_apply]
  simp only [shapeCast_self]
  rw [matmul1_apply, matmul1_apply, broadcastTo_1b_ab_apply]

end Cert.Sage.KernelPayload

end
-- ==== Proof.Region0Value.lean ====
/-
  Region 0 of the kernel program (the first layer's pallas_call), read as one function of its five arrays.

  The grid has 10 points. Point t stages rows [2000·t, 2000·t + 2000) of the two feature arrays (all 512 columns), the two weight
  arrays and the bias row whole, and writes back rows [2000·t, 2000·t + 2000) of the result (all 1024 columns). An entry of the layer
  function depends on one row of each feature array and one column of each weight array, so what point t writes back is
  exactly block t of the layer function of the WHOLE arrays; the 10 blocks tile the 20000 rows (row r lies in block r / 2000), so after
  the last write-back the result array is the layer function of the arrays as the region found them. All of this is stated
  at a parameter `V`, the buffers' contents when the region is entered, as the region's frame half is.
-/
import proofs.«129341_j75350906241117_1_alg».proof.Proof.PatchedFrameKernelIdeal
import proofs.«129341_j75350906241117_1_alg».proof.Proof.KernelPayload
import proofs.«129341_j75350906241117_1_alg».proof.Proof.SageSpec
import Idealize.ShloMosaic.Lib.Pipeline.Value
import Idealize.ShloMosaic.Lib.ValueIdx

set_option maxRecDepth 16384

noncomputable section

namespace Cert.Sage.Region0

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 10 grid points: the two feature windows and the result window sit at block row
    `t`, block column 0; the weight and bias windows at block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The result array as one function of the region's five arrays: the layer function of the destination rows, the
    neighbour means, the two weight arrays and the bias row, as the region finds them. -/
abbrev G (c : Dev nD) : S20000x1024.Idx → EReal :=
  Cert.Sage.layerRelu (M := 20000) (K := 512) (N := 1024) (V c main_v20) (V c main_v21) (V c main_v22) (V c main_v23) (V c main_v24)

/-- Row `p` of a feature window's block at point `t` is row `2000·t + p` of its array. -/
theorem feat0_read (c : Dev nD) (t : Fin cfg0.N) (p : Fin 2000) (k : Fin 512) (r : Fin 20000) (hr : r.val = t.val * 2000 + p.val) :
    iblk0 V c 0 t (ix2 p k) = V c main_v20 (ix2 r k) := by
  obtain ⟨e00, e01, -⟩ := idx_facts t
  show V c main_v20 (((cfg0.win 0).blk t).view.emb (ix2 p k)) = V c main_v20 (ix2 r k)
  refine congrArg (V c main_v20) (funext fun a => Fin.ext ?_)
  match a with
  | ⟨0, _⟩ => show win0_0.index t (0 : Fin 2) * 2000 + 1 * p.val = r.val; omega
  | ⟨1, _⟩ => show win0_0.index t (1 : Fin 2) * 512 + 1 * k.val = k.val; omega

theorem feat1_read (c : Dev nD) (t : Fin cfg0.N) (p : Fin 2000) (k : Fin 512) (r : Fin 20000) (hr : r.val = t.val * 2000 + p.val) :
    iblk0 V c 1 t (ix2 p k) = V c main_v21 (ix2 r k) := by
  obtain ⟨-, -, e10, e11, -⟩ := idx_facts t
  show V c main_v21 (((cfg0.win 1).blk t).view.emb (ix2 p k)) = V c main_v21 (ix2 r k)
  refine congrArg (V c main_v21) (funext fun a => Fin.ext ?_)
  match a with
  | ⟨0, _⟩ => show win0_1.index t (0 : Fin 2) * 2000 + 1 * p.val = r.val; omega
  | ⟨1, _⟩ => show win0_1.index t (1 : Fin 2) * 512 + 1 * k.val = k.val; omega

/-- A weight window's one block is its whole array. -/
theorem wt2_read (c : Dev nD) (t : Fin cfg0.N) (k : Fin 512) (q : Fin 1024) :
    iblk0 V c 2 t (ix2 k q) = V c main_v22 (ix2 k q) := by
  obtain ⟨-, -, -, -, e20, e21, -⟩ := idx_facts t
  show V c main_v22 (((cfg0.win 2).blk t).view.emb (ix2 k q)) = V c main_v22 (ix2 k q)
  refine congrArg (V c main_v22) (funext fun a => Fin.ext ?_)
  match a with
  | ⟨0, _⟩ => show win0_2.index t (0 : Fin 2) * 512 + 1 * k.val = k.val; omega
  | ⟨1, _⟩ => show win0_2.index t (1 : Fin 2) * 1024 + 1 * q.val = q.val; omega

theorem wt3_read (c : Dev nD) (t : Fin cfg0.N) (k : Fin 512) (q : Fin 1024) :
    iblk0 V c 3 t (ix2 k q) = V c main_v23 (ix2 k q) := by
  obtain ⟨-, -, -, -, -, -, e30, e31, -⟩ := idx_facts t
  show V c main_v23 (((cfg0.win 3).blk t).view.emb (ix2 k q)) = V c main_v23 (ix2 k q)
  refine congrArg (V c main_v23) (funext fun a => Fin.ext ?_)
  match a with
  | ⟨0, _⟩ => show win0_3.index t (0 : Fin 2) * 512 + 1 * k.val = k.val; omega
  | ⟨1, _⟩ => show win0_3.index t (1 : Fin 2) * 1024 + 1 * q.val = q.val; omega

/-- The bias window's one block is the bias row. -/
theorem bias_read (c : Dev nD) (t : Fin cfg0.N) (q : Fin 1024) :
    iblk0 V c 4 t (ix2 (0 : Fin 1) q) = V c main_v24 (ix2 (0 : Fin 1) q) := by
  obtain ⟨-, -, -, -, -, -, -, -, e40, e41, -⟩ := idx_facts t
  show V c main_v24 (((cfg0.win 4).blk t).view.emb (ix2 (0 : Fin 1) q)) = V c main_v24 (ix2 (0 : Fin 1) q)
  refine congrArg (V c main_v24) (funext fun a => Fin.ext ?_)
  match a with
  | ⟨0, _⟩ => show win0_4.index t (0 : Fin 2) * 1 + 1 * 0 = 0; omega
  | ⟨1, _⟩ => show win0_4.index t (1 : Fin 2) * 1024 + 1 * q.val = q.val; omega

/-- WHAT POINT `t` WRITES BACK is block `t` of the layer function of the whole arrays: entry (p, q) of the stored value is the
    entry of row p of the two feature blocks, which are rows 2000·t + p of the arrays, and column q of the weights. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz]
  simp only [View.ld_unit_zero (S := S2000x512) hz, View.ld_unit_zero (S := S512x1024) hz, View.ld_unit_zero (S := S1x1024) hz]
  obtain ⟨-, -, -, -, -, -, -, -, -, -, e50, e51⟩ := idx_facts t
  funext j
  revert j
  show ∀ j : S2000x1024.Idx, k0_pay1 (F := Ideal) (iblk0 V c 0 t) (iblk0 V c 2 t) (iblk0 V c 1 t) (iblk0 V c 3 t) (iblk0 V c 4 t) j
      = G V c (((cfg0.win 5).blk t).view.emb j)
  intro j
  obtain ⟨p, q, rfl⟩ : ∃ (p : Fin 2000) (q : Fin 1024), j = ix2 p q := ⟨j 0, j 1, eq_ix2 j⟩
  have ht : t.val < 10 := lt_of_lt_of_eq t.isLt (N_0 : cfg0.N = 10)
  have hemb : ((cfg0.win 5).blk t).view.emb (ix2 p q) = ix2 (n0 := 20000) (n1 := 1024) ⟨t.val * 2000 + p.val, by have := p.isLt; omega⟩ q := by
    funext a; apply Fin.ext
    match a with
    | ⟨0, _⟩ => show win0_5.index t (0 : Fin 2) * 2000 + 1 * p.val = t.val * 2000 + p.val; omega
    | ⟨1, _⟩ => show win0_5.index t (1 : Fin 2) * 1024 + 1 * q.val = q.val; omega
  rw [hemb]
  refine (Cert.Sage.KernelPayload.pay0_apply (iblk0 V c 0 t) (iblk0 V c 1 t) (iblk0 V c 2 t) (iblk0 V c 3 t) (iblk0 V c 4 t) p q).trans ?_
  dsimp only [G]
  rw [Cert.Sage.layerRelu_apply]
  simp only [feat0_read V c t p _ ⟨t.val * 2000 + p.val, by have := p.isLt; omega⟩ rfl, feat1_read V c t p _ ⟨t.val * 2000 + p.val, by have := p.isLt; omega⟩ rfl,
    wt2_read V c t _ q, wt3_read V c t _ q, bias_read V c t q]

/-- An index of the result array is in point `t`'s block iff each coordinate is in the block's range on its axis. -/
theorem mem_blk (t : Fin cfg0.N) (i : S20000x1024.Idx) :
    i ∈ ((cfg0.win 5).blk t).view.set ↔ ∀ a : Fin 2, win0_5.index t a * S2000x1024.size a ≤ (i a).val ∧ (i a).val < win0_5.index t a * S2000x1024.size a + S2000x1024.size a := by
  show i ∈ ((View.whole main_v25).slice (win0_5.rect t)).set ↔ _
  rw [View.set_slice_whole, Rect.mem_set_unit]
  exact Iff.rfl

/-- THE COVER: row r of the result lies in the block of point r / 2000, and every point writes back. -/
theorem cover (i : S20000x1024.Idx) : ∃ t : Fin cfg0.N, (cfg0.win 5).flush t = true ∧ i ∈ ((cfg0.win 5).blk t).view.set := by
  have hi0 : (i 0).val < 20000 := (i 0).isLt
  have hi1 : (i 1).val < 1024 := (i 1).isLt
  have hlt : (i 0).val / 2000 < cfg0.N := lt_of_lt_of_eq (by omega) (N_0 : cfg0.N = 10).symm
  obtain ⟨t, ht⟩ : ∃ t : Fin cfg0.N, t.val = (i 0).val / 2000 := ⟨⟨(i 0).val / 2000, hlt⟩, rfl⟩
  refine ⟨t, flush0_5 t, ?_⟩
  rw [mem_blk]
  obtain ⟨-, -, -, -, -, -, -, -, -, -, e50, e51⟩ := idx_facts t
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 1024 ≤ (i 1).val ∧ (i 1).val < win0_5.index t (1 : Fin 2) * 1024 + 1024; omega

/-- THE RESULT ARRAY after the region: the layer function of the five arrays as the region found them. -/
theorem final (c : Dev nD) : (dat0 (F := Ideal) V c).arrAt 5 cfg0.N = G V c :=
  (dat0 (F := Ideal) V c).arrAt_eq_of_cover 5 (G V c) (fun t _ => flushed_eq V c t) cover

end Cert.Sage.Region0

end
-- ==== Proof.Region1Value.lean ====
/- GENERATED by: python3 scratch/make_region1.py proof/Proof/Region0Value.lean proof/Proof/Region1Value.lean   (run in the unit directory)
   template: proof/Proof/Region0Value.lean, the hand-written module of region 0; substitutions, all at once: shapes S20000x1024->S5000x256, S2000x1024->S1000x256, S2000x512->S1000x1024, S512x1024->S1024x256, S1x1024->S1x256; names Region0->Region1, cfg0->cfg1, grid0->grid1, win0_->win1_, dat0->dat1, iblk0->iblk1, after0_5->after1_5, out0_5->out1_5, k0_pay1->k1_pay1, pay0_apply->pay1_apply, N_0->N_1, flush0_5->flush1_5, layerRelu->layer, main_v20->main_v46, main_v21->main_v47, main_v22->main_v48, main_v23->main_v49, main_v24->main_v50, main_v25->main_v51, the header's ordinal; sizes (whole numbers only) 20000->5000, 2000->1000, 512->1024, 1024->256, 10->5. -/
/-
  Region 1 of the kernel program (the second layer's pallas_call), read as one function of its five arrays.

  The grid has 5 points. Point t stages rows [1000·t, 1000·t + 1000) of the two feature arrays (all 1024 columns), the two weight
  arrays and the bias row whole, and writes back rows [1000·t, 1000·t + 1000) of the result (all 256 columns). An entry of the layer
  function depends on one row of each feature array and one column of each weight array, so what point t writes back is
  exactly block t of the layer function of the WHOLE arrays; the 5 blocks tile the 5000 rows (row r lies in block r / 1000), so after
  the last write-back the result array is the layer function of the arrays as the region found them. All of this is stated
  at a parameter `V`, the buffers' contents when the region is entered, as the region's frame half is.
-/
import proofs.«129341_j75350906241117_1_alg».proof.Proof.PatchedFrameKernelIdeal
import proofs.«129341_j75350906241117_1_alg».proof.Proof.KernelPayload
import proofs.«129341_j75350906241117_1_alg».proof.Proof.SageSpec
import Idealize.ShloMosaic.Lib.Pipeline.Value
import Idealize.ShloMosaic.Lib.ValueIdx

set_option maxRecDepth 16384

noncomputable section

namespace Cert.Sage.Region1

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 5 grid points: the two feature windows and the result window sit at block row
    `t`, block column 0; the weight and bias windows at block (0, 0). -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The result array as one function of the region's five arrays: the layer function of the destination rows, the
    neighbour means, the two weight arrays and the bias row, as the region finds them. -/
abbrev G (c : Dev nD) : S5000x256.Idx → EReal :=
  Cert.Sage.layer (M := 5000) (K := 1024) (N := 256) (V c main_v46) (V c main_v47) (V c main_v48) (V c main_v49) (V c main_v50)

/-- Row `p` of a feature window's block at point `t` is row `1000·t + p` of its array. -/
theorem feat0_read (c : Dev nD) (t : Fin cfg1.N) (p : Fin 1000) (k : Fin 1024) (r : Fin 5000) (hr : r.val = t.val * 1000 + p.val) :
    iblk1 V c 0 t (ix2 p k) = V c main_v46 (ix2 r k) := by
  obtain ⟨e00, e01, -⟩ := idx_facts t
  show V c main_v46 (((cfg1.win 0).blk t).view.emb (ix2 p k)) = V c main_v46 (ix2 r k)
  refine congrArg (V c main_v46) (funext fun a => Fin.ext ?_)
  match a with
  | ⟨0, _⟩ => show win1_0.index t (0 : Fin 2) * 1000 + 1 * p.val = r.val; omega
  | ⟨1, _⟩ => show win1_0.index t (1 : Fin 2) * 1024 + 1 * k.val = k.val; omega

theorem feat1_read (c : Dev nD) (t : Fin cfg1.N) (p : Fin 1000) (k : Fin 1024) (r : Fin 5000) (hr : r.val = t.val * 1000 + p.val) :
    iblk1 V c 1 t (ix2 p k) = V c main_v47 (ix2 r k) := by
  obtain ⟨-, -, e10, e11, -⟩ := idx_facts t
  show V c main_v47 (((cfg1.win 1).blk t).view.emb (ix2 p k)) = V c main_v47 (ix2 r k)
  refine congrArg (V c main_v47) (funext fun a => Fin.ext ?_)
  match a with
  | ⟨0, _⟩ => show win1_1.index t (0 : Fin 2) * 1000 + 1 * p.val = r.val; omega
  | ⟨1, _⟩ => show win1_1.index t (1 : Fin 2) * 1024 + 1 * k.val = k.val; omega

/-- A weight window's one block is its whole array. -/
theorem wt2_read (c : Dev nD) (t : Fin cfg1.N) (k : Fin 1024) (q : Fin 256) :
    iblk1 V c 2 t (ix2 k q) = V c main_v48 (ix2 k q) := by
  obtain ⟨-, -, -, -, e20, e21, -⟩ := idx_facts t
  show V c main_v48 (((cfg1.win 2).blk t).view.emb (ix2 k q)) = V c main_v48 (ix2 k q)
  refine congrArg (V c main_v48) (funext fun a => Fin.ext ?_)
  match a with
  | ⟨0, _⟩ => show win1_2.index t (0 : Fin 2) * 1024 + 1 * k.val = k.val; omega
  | ⟨1, _⟩ => show win1_2.index t (1 : Fin 2) * 256 + 1 * q.val = q.val; omega

theorem wt3_read (c : Dev nD) (t : Fin cfg1.N) (k : Fin 1024) (q : Fin 256) :
    iblk1 V c 3 t (ix2 k q) = V c main_v49 (ix2 k q) := by
  obtain ⟨-, -, -, -, -, -, e30, e31, -⟩ := idx_facts t
  show V c main_v49 (((cfg1.win 3).blk t).view.emb (ix2 k q)) = V c main_v49 (ix2 k q)
  refine congrArg (V c main_v49) (funext fun a => Fin.ext ?_)
  match a with
  | ⟨0, _⟩ => show win1_3.index t (0 : Fin 2) * 1024 + 1 * k.val = k.val; omega
  | ⟨1, _⟩ => show win1_3.index t (1 : Fin 2) * 256 + 1 * q.val = q.val; omega

/-- The bias window's one block is the bias row. -/
theorem bias_read (c : Dev nD) (t : Fin cfg1.N) (q : Fin 256) :
    iblk1 V c 4 t (ix2 (0 : Fin 1) q) = V c main_v50 (ix2 (0 : Fin 1) q) := by
  obtain ⟨-, -, -, -, -, -, -, -, e40, e41, -⟩ := idx_facts t
  show V c main_v50 (((cfg1.win 4).blk t).view.emb (ix2 (0 : Fin 1) q)) = V c main_v50 (ix2 (0 : Fin 1) q)
  refine congrArg (V c main_v50) (funext fun a => Fin.ext ?_)
  match a with
  | ⟨0, _⟩ => show win1_4.index t (0 : Fin 2) * 1 + 1 * 0 = 0; omega
  | ⟨1, _⟩ => show win1_4.index t (1 : Fin 2) * 256 + 1 * q.val = q.val; omega

/-- WHAT POINT `t` WRITES BACK is block `t` of the layer function of the whole arrays: entry (p, q) of the stored value is the
    entry of row p of the two feature blocks, which are rows 1000·t + p of the arrays, and column q of the weights. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S1000x1024) hz, View.ld_unit_zero (S := S1024x256) hz, View.ld_unit_zero (S := S1x256) hz]
  obtain ⟨-, -, -, -, -, -, -, -, -, -, e50, e51⟩ := idx_facts t
  funext j
  revert j
  show ∀ j : S1000x256.Idx, k1_pay1 (F := Ideal) (iblk1 V c 0 t) (iblk1 V c 2 t) (iblk1 V c 1 t) (iblk1 V c 3 t) (iblk1 V c 4 t) j
      = G V c (((cfg1.win 5).blk t).view.emb j)
  intro j
  obtain ⟨p, q, rfl⟩ : ∃ (p : Fin 1000) (q : Fin 256), j = ix2 p q := ⟨j 0, j 1, eq_ix2 j⟩
  have ht : t.val < 5 := lt_of_lt_of_eq t.isLt (N_1 : cfg1.N = 5)
  have hemb : ((cfg1.win 5).blk t).view.emb (ix2 p q) = ix2 (n0 := 5000) (n1 := 256) ⟨t.val * 1000 + p.val, by have := p.isLt; omega⟩ q := by
    funext a; apply Fin.ext
    match a with
    | ⟨0, _⟩ => show win1_5.index t (0 : Fin 2) * 1000 + 1 * p.val = t.val * 1000 + p.val; omega
    | ⟨1, _⟩ => show win1_5.index t (1 : Fin 2) * 256 + 1 * q.val = q.val; omega
  rw [hemb]
  refine (Cert.Sage.KernelPayload.pay1_apply (iblk1 V c 0 t) (iblk1 V c 1 t) (iblk1 V c 2 t) (iblk1 V c 3 t) (iblk1 V c 4 t) p q).trans ?_
  dsimp only [G]
  rw [Cert.Sage.layer_apply]
  simp only [feat0_read V c t p _ ⟨t.val * 1000 + p.val, by have := p.isLt; omega⟩ rfl, feat1_read V c t p _ ⟨t.val * 1000 + p.val, by have := p.isLt; omega⟩ rfl,
    wt2_read V c t _ q, wt3_read V c t _ q, bias_read V c t q]

/-- An index of the result array is in point `t`'s block iff each coordinate is in the block's range on its axis. -/
theorem mem_blk (t : Fin cfg1.N) (i : S5000x256.Idx) :
    i ∈ ((cfg1.win 5).blk t).view.set ↔ ∀ a : Fin 2, win1_5.index t a * S1000x256.size a ≤ (i a).val ∧ (i a).val < win1_5.index t a * S1000x256.size a + S1000x256.size a := by
  show i ∈ ((View.whole main_v51).slice (win1_5.rect t)).set ↔ _
  rw [View.set_slice_whole, Rect.mem_set_unit]
  exact Iff.rfl

/-- THE COVER: row r of the result lies in the block of point r / 1000, and every point writes back. -/
theorem cover (i : S5000x256.Idx) : ∃ t : Fin cfg1.N, (cfg1.win 5).flush t = true ∧ i ∈ ((cfg1.win 5).blk t).view.set := by
  have hi0 : (i 0).val < 5000 := (i 0).isLt
  have hi1 : (i 1).val < 256 := (i 1).isLt
  have hlt : (i 0).val / 1000 < cfg1.N := lt_of_lt_of_eq (by omega) (N_1 : cfg1.N = 5).symm
  obtain ⟨t, ht⟩ : ∃ t : Fin cfg1.N, t.val = (i 0).val / 1000 := ⟨⟨(i 0).val / 1000, hlt⟩, rfl⟩
  refine ⟨t, flush1_5 t, ?_⟩
  rw [mem_blk]
  obtain ⟨-, -, -, -, -, -, -, -, -, -, e50, e51⟩ := idx_facts t
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 256 ≤ (i 1).val ∧ (i 1).val < win1_5.index t (1 : Fin 2) * 256 + 256; omega

/-- THE RESULT ARRAY after the region: the layer function of the five arrays as the region found them. -/
theorem final (c : Dev nD) : (dat1 (F := Ideal) V c).arrAt 5 cfg1.N = G V c :=
  (dat1 (F := Ideal) V c).arrAt_eq_of_cover 5 (G V c) (fun t _ => flushed_eq V c t) cover

end Cert.Sage.Region1

end
-- ==== Proof.RefLayers.lean ====
/-
  The reference's two layers as the layer function of their operand stages, at the ideal instance.

  The reference computes a layer as the host's two matrix products added, plus the bias vector broadcast to a row and
  then over the rows (and, for the first layer, the larger of that and a broadcast zero). At the ideal instance the
  host's matrix product read at an entry is the sum over the contracted coordinate, and the two broadcasts read the
  bias vector at the column; so each layer is `Cert.Sage.layer` (`layerRelu`) of the stages that feed it, the bias
  row being the bias vector read at the column.
-/
import proofs.«129341_j75350906241117_1_alg».proof.Proof.Gen.ReferenceIdeal.Read
import proofs.«129341_j75350906241117_1_alg».proof.Proof.SageSpec
import Idealize.ShloMosaic.Lib.Pipeline.Value
import Idealize.ShloMosaic.Lib.ValueIdx
import Idealize.ShloMosaic.PureOps.Ideal.Laws

noncomputable section

namespace Cert.Sage.RefLayers

open Cert.ReferenceIdeal Cert.ReferenceIdeal.Gen Cert.ReferenceIdeal.Read Idealize.ShloMosaic Idealize.ShloMosaic.ValueIdx

/-- A bias vector as the one row the layer function reads: entry (0, q) is the vector's entry q. -/
abbrev biasRow {N : ℕ} (b : (⟨1, ![N]⟩ : Shape).Idx → EReal) : (⟨2, ![1, N]⟩ : Shape).Idx → EReal := fun i => b (ix1 (i 1))

/-- The first layer's result (after the rectifier) is the layer function of the sliced features, the neighbour mean, the two
    weight arrays and the bias.

    The arrays of the layer: `A` is the slice of the features to the 20000 destination rows, `B` the neighbour sum divided
    by the degree, `Ws` and `Wn` the two weight arrays [512, 1024], and the bias row the bias vector read at the column.
    At an entry (p, q) the result is the larger of a sum and the broadcast zero word, which is the extended real 0. The sum is
    the two matrix products added, then the bias: each product at (p, q) is the sum over k of its left operand at (p, k)
    times its weight at (k, q), because the product contracts the left operand's columns against the weight's rows and
    keeps the row of the one and the column of the other; the bias is broadcast first to a row and then over the rows, so
    at (p, q) it is the vector's entry q, whatever p. That is the layer's entry with the same association: products first,
    bias last. -/
theorem layer1 (x0 : (⟨S100000x512, .f32⟩ : BufTy).Contents (Elt Ideal)) (x1 x2 : (⟨S512x1024, .f32⟩ : BufTy).Contents (Elt Ideal))
    (x3 : (⟨S1024, .f32⟩ : BufTy).Contents (Elt Ideal)) (x7 x8 : (⟨S160000, .i32⟩ : BufTy).Contents (Elt Ideal)) :
    val_main_v26 (F := Ideal) x0 x1 x2 x3 x7 x8
      = Cert.Sage.layerRelu (M := 20000) (K := 512) (N := 1024) (val_main_v0 (F := Ideal) x0) (val_main_v19 (F := Ideal) x0 x7 x8) x1 x2 (biasRow x3) := by
  funext i
  obtain ⟨p, q, rfl⟩ : ∃ (p : Fin 20000) (q : Fin 1024), i = ix2 p q := ⟨i 0, i 1, eq_ix2 i⟩
  rw [Cert.Sage.layerRelu_apply]
  -- the stages read at (p, q), from the rectifier inwards: maximum, the two additions, the two products as sums over
  -- the contracted coordinate, the two broadcasts of the bias, the broadcast of the zero word
  rw [val_main_v26_apply, val_main_v25_apply, val_main_v22_apply, val_main_v20_apply, val_main_v21_apply,
    val_main_v24_apply, val_main_v23_apply, val_main_call0_v0_apply, val_main_call0_cst_apply]
  -- a product reads its left operand at row p, column k and its weight at row k, column q
  have hl : ∀ k : Fin 512, lidx_main_v20 (ix2 p q) k = ix2 p k := fun k => funext fun a => Fin.ext (by
    match a with | ⟨0, _⟩ => rfl | ⟨1, _⟩ => rfl)
  have hr : ∀ k : Fin 512, ridx_main_v20 (ix2 p q) k = ix2 k q := fun k => funext fun a => Fin.ext (by
    match a with | ⟨0, _⟩ => rfl | ⟨1, _⟩ => rfl)
  have hl' : ∀ k : Fin 512, lidx_main_v21 (ix2 p q) k = ix2 p k := fun k => funext fun a => Fin.ext (by
    match a with | ⟨0, _⟩ => rfl | ⟨1, _⟩ => rfl)
  have hr' : ∀ k : Fin 512, ridx_main_v21 (ix2 p q) k = ix2 k q := fun k => funext fun a => Fin.ext (by
    match a with | ⟨0, _⟩ => rfl | ⟨1, _⟩ => rfl)
  -- the two broadcasts of the bias compose to reading the vector at the column q
  have hb : idx_main_v23 (idx_main_v24 (ix2 p q)) = ix1 q := funext fun a => Fin.ext (by
    match a with | ⟨0, _⟩ => rfl)
  -- the rectifier's zero word is the extended real 0
  have hz : FloatOps.ofBits (F := Ideal) .f32 0x00000000#32 = (0 : EReal) := Ideal.ofBits_zero_f32
  simp only [hl, hr, hl', hr', hb, hz]
  -- what is left is the layer's entry spelt out: sum, sum and maximum of extended reals on both sides
  rfl

/-- The second layer's result is the layer function of the sliced hidden features, their neighbour mean, the two weight
    arrays and the bias.

    The arrays of the layer: `A` is the slice of the first layer's result to the 5000 destination rows, `B` the neighbour
    sum of the hidden features divided by the degree, `Ws` and `Wn` the two weight arrays [1024, 256], and the bias row
    the bias vector read at the column. At an entry (p, q) the result is the two matrix products added, then the bias,
    with no rectifier: each product at (p, q) is the sum over k of its left operand at (p, k) times its weight at (k, q),
    and the bias, broadcast to a row and then over the rows, is the vector's entry q. -/
theorem layer2 (x0 : (⟨S100000x512, .f32⟩ : BufTy).Contents (Elt Ideal)) (x1 x2 : (⟨S512x1024, .f32⟩ : BufTy).Contents (Elt Ideal))
    (x3 : (⟨S1024, .f32⟩ : BufTy).Contents (Elt Ideal)) (x4 x5 : (⟨S1024x256, .f32⟩ : BufTy).Contents (Elt Ideal))
    (x6 : (⟨S256, .f32⟩ : BufTy).Contents (Elt Ideal)) (x7 x8 : (⟨S160000, .i32⟩ : BufTy).Contents (Elt Ideal))
    (x9 x10 : (⟨S40000, .i32⟩ : BufTy).Contents (Elt Ideal)) :
    val_main_v52 (F := Ideal) x0 x1 x2 x3 x4 x5 x6 x7 x8 x9 x10
      = Cert.Sage.layer (M := 5000) (K := 1024) (N := 256) (val_main_v27 (F := Ideal) x0 x1 x2 x3 x7 x8)
          (val_main_v46 (F := Ideal) x0 x1 x2 x3 x7 x8 x9 x10) x4 x5 (biasRow x6) := by
  funext i
  obtain ⟨p, q, rfl⟩ : ∃ (p : Fin 5000) (q : Fin 256), i = ix2 p q := ⟨i 0, i 1, eq_ix2 i⟩
  rw [Cert.Sage.layer_apply]
  -- the stages read at (p, q), from the last addition inwards: the two additions, the two products as sums over the
  -- contracted coordinate, the two broadcasts of the bias
  rw [val_main_v52_apply, val_main_v49_apply, val_main_v47_apply, val_main_v48_apply, val_main_v51_apply,
    val_main_v50_apply]
  -- a product reads its left operand at row p, column k and its weight at row k, column q
  have hl : ∀ k : Fin 1024, lidx_main_v47 (ix2 p q) k = ix2 p k := fun k => funext fun a => Fin.ext (by
    match a with | ⟨0, _⟩ => rfl | ⟨1, _⟩ => rfl)
  have hr : ∀ k : Fin 1024, ridx_main_v47 (ix2 p q) k = ix2 k q := fun k => funext fun a => Fin.ext (by
    match a with | ⟨0, _⟩ => rfl | ⟨1, _⟩ => rfl)
  have hl' : ∀ k : Fin 1024, lidx_main_v48 (ix2 p q) k = ix2 p k := fun k => funext fun a => Fin.ext (by
    match a with | ⟨0, _⟩ => rfl | ⟨1, _⟩ => rfl)
  have hr' : ∀ k : Fin 1024, ridx_main_v48 (ix2 p q) k = ix2 k q := fun k => funext fun a => Fin.ext (by
    match a with | ⟨0, _⟩ => rfl | ⟨1, _⟩ => rfl)
  -- the two broadcasts of the bias compose to reading the vector at the column q
  have hb : idx_main_v50 (idx_main_v51 (ix2 p q)) = ix1 q := funext fun a => Fin.ext (by
    match a with | ⟨0, _⟩ => rfl)
  simp only [hl, hr, hl', hr', hb]
  -- what is left is the layer's entry spelt out: sums of extended reals on both sides
  rfl

end Cert.Sage.RefLayers

end
-- ==== Proof.KernelValue.lean ====
/-
  The kernel program's result array as the reference's own last stage of the arguments.

  Between the launch and the return the kernel program runs a stretch of host operations, the first layer's region, a
  second stretch of host operations, and the second layer's region. Each stretch prepares a region's five arrays from
  what came before by the SAME operations the reference applies (the slice to the destination rows; the gather along
  the edges' sources, the sum into the edges' destinations and the division by the clamped in-degree, which stay folded
  here as the reference's stages, one function of their operands), followed by a change of float format on the way into
  the region, which at the ideal instance is the identity, and a reshape of the bias vector to one row.

  So, reading forwards: the first region's five arrays are the reference's sliced features, its neighbour mean, the two
  weight arrays and the bias row; the region leaves the layer function (with the rectifier) of them, which is the
  reference's hidden array; the second stretch then makes of that hidden array exactly what the reference makes of its
  own; and the second region leaves the layer function of those, which is the reference's result.
-/
import proofs.«129341_j75350906241117_1_alg».proof.Proof.PatchedRunKernelIdeal
import proofs.«129341_j75350906241117_1_alg».proof.Proof.Region0Value
import proofs.«129341_j75350906241117_1_alg».proof.Proof.Region1Value
import proofs.«129341_j75350906241117_1_alg».proof.Proof.RefLayers
import proofs.«129341_j75350906241117_1_alg».proof.Proof.Gen.ReferenceIdeal.Read
import Idealize.ShloMosaic.Lib.StableHlo.Run
import Idealize.ShloMosaic.Lib.ValueLayout

set_option maxRecDepth 16384

noncomputable section

namespace Cert.Sage.KernelValue

open Cert.KernelIdeal Cert.KernelIdeal.Gen Cert.KernelIdeal.GenP Idealize.ShloMosaic Idealize.ShloMosaic.TcCoe Idealize.SL.Sem
open Idealize.ShloMosaic.StableHlo Idealize.ShloMosaic.ValueIdx

/-! ## What the two host stretches leave in the regions' arrays, for any float values -/

section Reads
variable {F : FTy → Type} [FloatOps F]
variable (m : (ℓ : Loc nD τ sig) → Buf (Elt F) ℓ) (ρ : Dev nD → PrngReg)

/-- The first region's destination rows: the reference's slice of the features, in the narrower float format. -/
theorem V1_v20 (c : Dev nD) : V1 m ρ c main_v20
    = truncf .bf16 (Cert.ReferenceIdeal.Read.val_main_v0 (F := F) (m ((c : Thread nD τ).loc main_arg0))) (by decide) := by
  dsimp only [V1, W1, hostOps0]; after_results; rfl

set_option maxHeartbeats 4000000 in
/-- The first region's neighbour means: the reference's gather, sum and division by the clamped degree, in the narrower format. -/
theorem V1_v21 (c : Dev nD) : V1 m ρ c main_v21
    = truncf .bf16 (Cert.ReferenceIdeal.Read.val_main_v19 (F := F) (m ((c : Thread nD τ).loc main_arg0))
        (m ((c : Thread nD τ).loc main_arg7)) (m ((c : Thread nD τ).loc main_arg8))) (by decide) := by
  dsimp only [V1, W1, hostOps0]; after_results_simp
  -- the reference's stage, opened down to its operations: the same operations in the same order on the same arguments
  unfold Cert.ReferenceIdeal.Read.val_main_v19 Cert.ReferenceIdeal.Read.val_main_v10 Cert.ReferenceIdeal.Read.val_main_v18 Cert.ReferenceIdeal.Read.val_main_v17 Cert.ReferenceIdeal.Read.val_main_v16 Cert.ReferenceIdeal.Read.val_main_v14 Cert.ReferenceIdeal.Read.val_main_v15 Cert.ReferenceIdeal.Read.val_main_v13 Cert.ReferenceIdeal.Read.val_main_v12 Cert.ReferenceIdeal.Read.val_main_v11 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_c Cert.ReferenceIdeal.Read.val_main_c_0 Cert.ReferenceIdeal.Read.val_main_cst Cert.ReferenceIdeal.Read.val_main_cst_1 Cert.ReferenceIdeal.Read.val_main_cst_2 Cert.ReferenceIdeal.Read.val_main_cst_3
  rfl

theorem V1_v22 (c : Dev nD) : V1 m ρ c main_v22 = truncf .bf16 (m ((c : Thread nD τ).loc main_arg1)) (by decide) := by
  dsimp only [V1, W1, hostOps0]; after_results

theorem V1_v23 (c : Dev nD) : V1 m ρ c main_v23 = truncf .bf16 (m ((c : Thread nD τ).loc main_arg2)) (by decide) := by
  dsimp only [V1, W1, hostOps0]; after_results

/-- The first region's bias row: the bias vector reshaped to one row. -/
theorem V1_v24 (c : Dev nD) : V1 m ρ c main_v24
    = shapeCast S1x1024 (show (⟨S1024, .f32⟩ : BufTy).Contents (Elt F) from m ((c : Thread nD τ).loc main_arg3)) (show S1024.ShapeCasts S1x1024 by decide) := by
  dsimp only [V1, W1, hostOps0]; after_results; rfl

variable (x0 : (⟨Cert.ReferenceIdeal.S100000x512, .f32⟩ : BufTy).Contents (Elt F)) (x1 x2 : (⟨Cert.ReferenceIdeal.S512x1024, .f32⟩ : BufTy).Contents (Elt F))
  (x3 : (⟨Cert.ReferenceIdeal.S1024, .f32⟩ : BufTy).Contents (Elt F)) (x7 x8 : (⟨Cert.ReferenceIdeal.S160000, .i32⟩ : BufTy).Contents (Elt F))

/-- The second region's destination rows, once the hidden array is the reference's: the reference's slice of it. -/
theorem V3_v46 (c : Dev nD) (hH : W2 m ρ c (Proc.devRef .tc main_v25) = Cert.ReferenceIdeal.Read.val_main_v26 (F := F) x0 x1 x2 x3 x7 x8) :
    V3 m ρ c main_v46 = truncf .bf16 (Cert.ReferenceIdeal.Read.val_main_v27 (F := F) x0 x1 x2 x3 x7 x8) (by decide) := by
  dsimp only [V3, W3, hostOps1]; after_results; rw [hH]; rfl

set_option maxHeartbeats 4000000 in
/-- The second region's neighbour means, once the hidden array is the reference's: the reference's gather, sum and division
    applied to it, with the second edge list as launched. -/
theorem V3_v47 (c : Dev nD) (hH : W2 m ρ c (Proc.devRef .tc main_v25) = Cert.ReferenceIdeal.Read.val_main_v26 (F := F) x0 x1 x2 x3 x7 x8) :
    V3 m ρ c main_v47 = truncf .bf16 (Cert.ReferenceIdeal.Read.val_main_v46 (F := F) x0 x1 x2 x3 x7 x8
        (m ((c : Thread nD τ).loc main_arg9)) (m ((c : Thread nD τ).loc main_arg10))) (by decide) := by
  dsimp only [V3, W3, hostOps1]; after_results_simp; rw [hH, W2_main_arg9, W2_main_arg10]
  -- the reference's stage, opened down to its operations on the hidden array (which stays folded)
  unfold Cert.ReferenceIdeal.Read.val_main_v46 Cert.ReferenceIdeal.Read.val_main_v37 Cert.ReferenceIdeal.Read.val_main_v45 Cert.ReferenceIdeal.Read.val_main_v44 Cert.ReferenceIdeal.Read.val_main_v43 Cert.ReferenceIdeal.Read.val_main_v41 Cert.ReferenceIdeal.Read.val_main_v42 Cert.ReferenceIdeal.Read.val_main_v40 Cert.ReferenceIdeal.Read.val_main_v39 Cert.ReferenceIdeal.Read.val_main_v38 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_c_4 Cert.ReferenceIdeal.Read.val_main_c_5 Cert.ReferenceIdeal.Read.val_main_cst_6 Cert.ReferenceIdeal.Read.val_main_cst_7 Cert.ReferenceIdeal.Read.val_main_cst_8 Cert.ReferenceIdeal.Read.val_main_cst_9
  rfl

theorem V3_v48 (c : Dev nD) : V3 m ρ c main_v48 = truncf .bf16 (m ((c : Thread nD τ).loc main_arg4)) (by decide) := by
  dsimp only [V3, W3, hostOps1]; after_results; rw [W2_main_arg4]

theorem V3_v49 (c : Dev nD) : V3 m ρ c main_v49 = truncf .bf16 (m ((c : Thread nD τ).loc main_arg5)) (by decide) := by
  dsimp only [V3, W3, hostOps1]; after_results; rw [W2_main_arg5]

theorem V3_v50 (c : Dev nD) : V3 m ρ c main_v50
    = shapeCast S1x256 (show (⟨S256, .f32⟩ : BufTy).Contents (Elt F) from m ((c : Thread nD τ).loc main_arg6)) (show S256.ShapeCasts S1x256 by decide) := by
  dsimp only [V3, W3, hostOps1]; after_results; rw [W2_main_arg6]; rfl

end Reads

/-! ## At the ideal instance -/

/-- Over the extended reals a change of float format changes nothing. -/
theorem truncf_ideal {s : Shape} (a : FVec Ideal s .f32) (h : FTy.bits .bf16 < FTy.bits .f32) :
    (truncf .bf16 a h : s.Idx → EReal) = a := rfl

/-- A vector reshaped to one row is the row the layer function reads: entry (0, q) is the vector's entry q. -/
theorem row_of_vector {N : ℕ} (b : (⟨1, ![N]⟩ : Shape).Idx → EReal) (h : (⟨1, ![N]⟩ : Shape).ShapeCasts ⟨2, ![1, N]⟩) :
    shapeCast ⟨2, ![1, N]⟩ b h = Cert.Sage.RefLayers.biasRow b := by
  funext i
  obtain ⟨u, q, rfl⟩ : ∃ (u : Fin 1) (q : Fin N), i = ix2 u q := ⟨i 0, i 1, eq_ix2 i⟩
  exact shapeCast_a_1a_apply b h u q

variable (m : (ℓ : Loc nD τ sig) → Buf (Elt Ideal) ℓ) (ρ : Dev nD → PrngReg)

/-- THE HIDDEN ARRAY: what the first region leaves is the reference's first layer after its rectifier, of the arguments as
    launched — the layer function of five arrays that are, one by one, the reference's. -/
theorem hidden (c : Dev nD) : W2 m ρ c (Proc.devRef .tc main_v25)
    = Cert.ReferenceIdeal.Read.val_main_v26 (F := Ideal) (m ((c : Thread nD τ).loc main_arg0)) (m ((c : Thread nD τ).loc main_arg1))
        (m ((c : Thread nD τ).loc main_arg2)) (m ((c : Thread nD τ).loc main_arg3)) (m ((c : Thread nD τ).loc main_arg7)) (m ((c : Thread nD τ).loc main_arg8)) := by
  refine (show W2 m ρ c (Proc.devRef .tc main_v25) = (dat0 (F := Ideal) (V1 m ρ) c).arrAt 5 cfg0.N from W2_arr m ρ c 5).trans ?_
  rw [Cert.Sage.Region0.final (V1 m ρ) c, Cert.Sage.RefLayers.layer1]
  show Cert.Sage.layerRelu (M := 20000) (K := 512) (N := 1024) (V1 m ρ c main_v20) (V1 m ρ c main_v21) (V1 m ρ c main_v22) (V1 m ρ c main_v23) (V1 m ρ c main_v24) = _
  rw [V1_v20, V1_v21, V1_v22, V1_v23, V1_v24, truncf_ideal, truncf_ideal, truncf_ideal, truncf_ideal]
  exact congrArg _ (row_of_vector _ _)

/-- THE RESULT ARRAY: what the second region leaves is the reference's last stage of the arguments as launched. -/
theorem result (c : Dev nD) : W4 m ρ c (Proc.devRef .tc main_v51)
    = Cert.ReferenceIdeal.Read.val_main_v52 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9))
        (m ((c : Thread nD τ).loc main_arg10)) := by
  refine (show W4 m ρ c (Proc.devRef .tc main_v51) = (dat1 (F := Ideal) (V3 m ρ) c).arrAt 5 cfg1.N from W4_arr m ρ c 5).trans ?_
  rw [Cert.Sage.Region1.final (V3 m ρ) c, Cert.Sage.RefLayers.layer2]
  show Cert.Sage.layer (M := 5000) (K := 1024) (N := 256) (V3 m ρ c main_v46) (V3 m ρ c main_v47) (V3 m ρ c main_v48) (V3 m ρ c main_v49) (V3 m ρ c main_v50) = _
  rw [V3_v46 m ρ _ _ _ _ _ _ c (hidden m ρ c), V3_v47 m ρ _ _ _ _ _ _ c (hidden m ρ c), V3_v48, V3_v49, V3_v50,
    truncf_ideal, truncf_ideal, truncf_ideal, truncf_ideal]
  exact congrArg _ (row_of_vector _ _)

end Cert.Sage.KernelValue

end
-- ==== Proof.lean ====
/-
  A two-layer mean-aggregating graph convolution as two row-blocked kernels, against its plain reference: equal over the
  extended reals.

  Both programs compute, for each layer, the neighbour mean of the source features (gather the rows at the edges' sources,
  sum them into the edges' destinations, divide by the in-degree clamped below at one), and then

      out[p, q] = (∑ₖ dst[p, k] · W_self[k, q]  +  ∑ₖ mean[p, k] · W_neigh[k, q])  +  bias[q],

  the first layer followed by the larger of that and zero. The kernel program computes the two products, the sum, the bias
  and the rectifier inside a pallas_call over blocks of rows (2000 rows at each of 10 grid points for the first layer, 1000
  rows at each of 5 for the second), its operands rounded to a narrower float format on the way in; the reference computes
  them as whole-array host operations. Over the extended reals the change of format is the identity, a product accumulated
  into zeros is the plain sum over the contracted coordinate, and an entry of the result depends on one row of each feature
  array and one column of each weight array — so each grid point writes back exactly its block of rows of the reference's
  array, and the blocks tile the rows. The two sums are added in the same order on both sides, the bias last on both, so
  the two results are the same term: no law that needs finite entries is used, and the precondition is never opened.

  The claims: each kernel program's frame is the frame certificate of its run (terminates, nothing faults, the arguments
  end as launched); the reference's frame is its run with the result dropped; the idealization rewrote nothing, so there is
  nothing to preserve; and for the value claim the kernel program's run is read with its result array named (`run_named`),
  that array is shown to be the reference's last stage of the arguments (`Cert.Sage.KernelValue.result`), and the
  reference's run ends at the same stage.
-/
import proofs.«129341_j75350906241117_1_alg».proof.Defs
import proofs.«129341_j75350906241117_1_alg».proof.Proof.Gen.Kernel
import proofs.«129341_j75350906241117_1_alg».proof.Proof.PatchedFrameKernel
import proofs.«129341_j75350906241117_1_alg».proof.Proof.Gen.KernelIdeal
import proofs.«129341_j75350906241117_1_alg».proof.Proof.PatchedFrameKernelIdeal
import proofs.«129341_j75350906241117_1_alg».proof.Proof.PatchedRunKernelIdeal
import proofs.«129341_j75350906241117_1_alg».proof.Proof.KernelValue
import proofs.«129341_j75350906241117_1_alg».proof.Proof.Gen.ReferenceIdeal
import proofs.«129341_j75350906241117_1_alg».proof.Proof.Gen.ReferenceIdeal.Run
import proofs.«129341_j75350906241117_1_alg».proof.Proof.Gen.ReferenceIdeal.Read
import proofs.«129341_j75350906241117_1_alg».proof.Proof.Gen.Pre_finite_inputs
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and both end with the reference's last stage of those
    arguments in their result array: the kernel program because its second region leaves the layer function of arrays that
    are, one by one, the reference's; the reference by its own run. -/
theorem algebraic : Cert.algebraic_KernelIdeal_ReferenceIdeal := by
  intro m ρ m' ρ' _ hagree
  refine ⟨fun c => Cert.KernelIdeal.GenP.W4 m ρ c (Proc.devRef .tc Cert.KernelIdeal.main_v51), Cert.KernelIdeal.GenP.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v52_eq, h0, h1, h2, h3, h4, h5, h6, h7, h8, h9, h10]
  exact (Cert.Sage.KernelValue.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
